-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x40 .f32) (main_arg5 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x40 : Shape := ⟨2, ![50000, 40]⟩
abbrev S5000x40 : Shape := ⟨2, ![5000, 40]⟩
abbrev S800000x40 : Shape := ⟨2, ![800000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 41
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x128, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S1x128, .f32⟩
  | .hbm, ⟨25, _⟩ => ⟨S50000x40, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x40, .f32⟩
  | .hbm, ⟨35, _⟩ => ⟨S_, .f32⟩
  | .hbm, ⟨36, _⟩ => ⟨S50000x40, .f32⟩
  | .hbm, ⟨37, _⟩ => ⟨S800000x1, .i32⟩
  | .hbm, ⟨38, _⟩ => ⟨S50000x40, .f32⟩
  | .hbm, ⟨39, _⟩ => ⟨S1x40, .f32⟩
  | .hbm, ⟨40, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x40, .f32⟩
  | .local _ .vmem, ⟨9, _⟩ => ⟨S5000x40, .f32⟩
  | .local _ .vmem, ⟨10, _⟩ => ⟨S5000x40, .f32⟩
  | .local _ .vmem, ⟨11, _⟩ => ⟨S5000x40, .f32⟩
  | .local _ .vmem, ⟨12, _⟩ => ⟨S5000x40, .f32⟩
  | .local _ .vmem, ⟨13, _⟩ => ⟨S1x40, .f32⟩
  | .local _ .vmem, ⟨14, _⟩ => ⟨S5000x40, .f32⟩
  | .local _ .vmem, ⟨15, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S_S50000x40 : S_.BroadcastsInDim S50000x40 (![] : Fin 0 → Fin S50000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x40_S5000x40_1_0_0_1_n_n_wf : DotDims.WF S5000x128 S128x40 S5000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .f32 = 32 ∨ (Rect.block (s := S128x40) S128x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x40.size a ≤ S50000x40.size a
  hwx1_3 : ∀ i : grid1.Coords, EltTy.bits .f32 = 32 ∨ (Rect.block (s := S50000x40) S5000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S50000x40.size a
  hwx2_0 : ∀ i : grid2.Coords, EltTy.bits .f32 = 32 ∨ (Rect.block (s := S50000x40) S5000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S50000x40.size a
  hwx2_2 : ∀ i : grid2.Coords, EltTy.bits .f32 = 32 ∨ (Rect.block (s := S50000x40) S5000x40.size (cc2_transform_2 i) (hinb2_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S5000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v26) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v28) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x40 : Shape := ⟨2, ![50000, 40]⟩
abbrev S800000x40 : Shape := ⟨2, ![800000, 40]⟩
abbrev S1x40 : Shape := ⟨2, ![1, 40]⟩
abbrev S50000 : Shape := ⟨1, ![50000]⟩
abbrev S50000x1 : Shape := ⟨2, ![50000, 1]⟩

abbrev nBuf : Space → Nat
  | .hbm => 62
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x128, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S1x128, .f32⟩
  | .hbm, ⟨25, _⟩ => ⟨S50000x128, .f32⟩
  | .hbm, ⟨26, _⟩ => ⟨S50000x128, .f32⟩
  | .hbm, ⟨27, _⟩ => ⟨S_, .f32⟩
  | .hbm, ⟨28, _⟩ => ⟨S50000x128, .f32⟩
  | .hbm, ⟨29, _⟩ => ⟨S50000x128, .f32⟩
  | .hbm, ⟨30, _⟩ => ⟨S50000x40, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x40, .f32⟩
  | .hbm, ⟨40, _⟩ => ⟨S_, .f32⟩
  | .hbm, ⟨41, _⟩ => ⟨S50000x40, .f32⟩
  | .hbm, ⟨42, _⟩ => ⟨S800000x1, .i32⟩
  | .hbm, ⟨43, _⟩ => ⟨S50000x40, .f32⟩
  | .hbm, ⟨44, _⟩ => ⟨S1x40, .f32⟩
  | .hbm, ⟨45, _⟩ => ⟨S50000x40, .f32⟩
  | .hbm, ⟨46, _⟩ => ⟨S50000x40, .f32⟩
  | .hbm, ⟨47, _⟩ => ⟨S_, .f32⟩
  | .hbm, ⟨48, _⟩ => ⟨S50000, .f32⟩
  | .hbm, ⟨49, _⟩ => ⟨S_, .f32⟩
  | .hbm, ⟨50, _⟩ => ⟨S50000, .f32⟩
  | .hbm, ⟨51, _⟩ => ⟨S50000, .f32⟩
  | .hbm, ⟨52, _⟩ => ⟨S50000x1, .f32⟩
  | .hbm, ⟨53, _⟩ => ⟨S50000x40, .f32⟩
  | .hbm, ⟨54, _⟩ => ⟨S50000x40, .f32⟩
  | .hbm, ⟨55, _⟩ => ⟨S50000x40, .f32⟩
  | .hbm, ⟨56, _⟩ => ⟨S_, .f32⟩
  | .hbm, ⟨57, _⟩ => ⟨S50000, .f32⟩
  | .hbm, ⟨58, _⟩ => ⟨S50000x1, .f32⟩
  | .hbm, ⟨59, _⟩ => ⟨S50000x1, .f32⟩
  | .hbm, ⟨60, _⟩ => ⟨S50000x40, .f32⟩
  | .hbm, ⟨61, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call1_cst : Ref sig .tc := ⟨.hbm, 47, rfl⟩
abbrev main_call1_v0 : Ref sig .tc := ⟨.hbm, 48, rfl⟩
abbrev main_call1_cst_0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_v6 : Ref sig .tc := ⟨.hbm, 55, rfl⟩
abbrev main_call1_cst_1 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_v33 : Ref sig .tc := ⟨.hbm, 61, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x40_S50000x40_1_0_0_1_n_n_wf : DotDims.WF S50000x128 S128x40 S50000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

class Facts : Prop extends Facts₀ where

variable [Facts]
-- ==== Proof.Spec.lean ====
/-
  A two-layer graph convolution with a row-wise log-softmax, written index by index on the extended reals.

  The network is built from three row-local maps and one edge aggregation. The row-local maps are: the product of
  an [M, K] array with a [K, N] array (entry (r, j) is the sum over k of x (r, k) · w (k, j)); adding a one-row
  array to every row, with or without clamping below at zero; and the log-softmax of each row, written the stable
  way: with m the row's maximum (a fold of max from −∞) and s the sum over the row of exp (z − m), entry (r, j) is
  (z (r, j) − m) − log s. Each depends, at row r, only on row r of its array argument, which is why a computation
  cut into blocks of rows and the same computation on the whole array give one result.
-/
import Idealize.ShloMosaic.PureOps.Ideal.Laws
import Idealize.ShloMosaic.Lib.ValueIdx

noncomputable section

open scoped BigOperators

namespace Cert.Gcn

open Idealize.ShloMosaic Idealize.ShloMosaic.ValueIdx

/-- The product of an [M, K] array and a [K, N] array: entry (r, j) is the sum over k of x (r, k) · w (k, j). -/
def dense {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- A one-row array added to every row. -/
def addRow {M N : Nat} (a : (⟨2, ![M, N]⟩ : Shape).Idx → EReal) (b : (⟨2, ![1, N]⟩ : Shape).Idx → EReal) :
    (⟨2, ![M, N]⟩ : Shape).Idx → EReal :=
  fun i => a i + b (ix2 (0 : Fin 1) (i 1))

/-- A one-row array added to every row, the sum clamped below at zero. -/
def biasRelu {M N : Nat} (a : (⟨2, ![M, N]⟩ : Shape).Idx → EReal) (b : (⟨2, ![1, N]⟩ : Shape).Idx → EReal) :
    (⟨2, ![M, N]⟩ : Shape).Idx → EReal :=
  fun i => max (a i + b (ix2 (0 : Fin 1) (i 1))) 0

/-- The maximum of row r, folded from −∞. -/
def rowMax {M N : Nat} (z : (⟨2, ![M, N]⟩ : Shape).Idx → EReal) (r : Fin M) : EReal :=
  (Finset.univ : Finset (Fin N)).fold max ⊥ (fun j => z (ix2 r j))

/-- The sum over row r of exp (z − the row's maximum). -/
def rowExpSum {M N : Nat} (z : (⟨2, ![M, N]⟩ : Shape).Idx → EReal) (r : Fin M) : EReal :=
  ∑ j : Fin N, Ideal.exp (z (ix2 r j) - rowMax z r)

/-- The log-softmax of each row: (z − m) − log s with m the row's maximum and s the row's sum of exp (z − m). -/
def logSoftmaxRows {M N : Nat} (z : (⟨2, ![M, N]⟩ : Shape).Idx → EReal) : (⟨2, ![M, N]⟩ : Shape).Idx → EReal :=
  fun i => (z i - rowMax z (i 0)) - Ideal.log (rowExpSum z (i 0))

end Cert.Gcn

end
-- ==== Proof.LibPlainDot.lean ====
/-
  A PLAIN MATRIX PRODUCT READ AT AN INDEX (general lemmas; they mention no program).

  Take dimension numbers of a product [M, K] × [K, N] → [M, N] that contract the left operand's axis 1 with the
  right operand's axis 0, keep the left axis 0 and the right axis 1, and have no batch axes. The contraction index
  set then has one axis of extent K, so it is Fin K; the left operand's index at result index (i, j) and contraction
  position k is (i, k) and the right operand's is (k, j). Hence on the extended reals both the accumulate-into-zero
  product of the vector unit and the host's dot product are, at (i, j), the finite sum over k of l (i, k) · r (k, j).
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat} (d : DotDims (⟨2, ![M, K]⟩ : Shape) (⟨2, ![K, N]⟩ : Shape) (⟨2, ![M, N]⟩ : Shape))

/-- The dimension numbers are those of a plain product: contract left axis 1 with right axis 0, keep left axis 0
    and right axis 1, no batch axes. -/
structure Plain : Prop where
  lc : d.lhsContracting = [1]
  rc : d.rhsContracting = [0]
  ln : d.lhsNonContracting = [0]
  rn : d.rhsNonContracting = [1]
  lb : d.lhsBatch = []
  rb : d.rhsBatch = []

variable {d}

theorem contr_rank (h : Plain d) : d.contr.rank = 1 := by rw [d.rank_contr, h.lc]; rfl

theorem contr_size (h : Plain d) : d.contr.size ⟨0, by rw [contr_rank h]; exact Nat.one_pos⟩ = K := by
  have hp : 0 < d.lhsContracting.length := by rw [h.lc]; exact Nat.one_pos
  rw [d.size_contr 0 hp]
  have : d.lhsContracting[0] = (1 : Fin 2) := by simp [h.lc]
  rw [this]; rfl

/-- The left operand's row is the result's row. -/
theorem lhs_row (h : Plain d) (j : (⟨2, ![M, N]⟩ : Shape).Idx) (q : d.contr.Idx) : (d.lhsIdx j q 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 0 _ Nat.zero_lt_two (by simp [h.lb, h.ln])

/-- The left operand's column is the contraction position. -/
theorem lhs_col (h : Plain d) (j : (⟨2, ![M, N]⟩ : Shape).Idx) (q : d.contr.Idx) :
    (d.lhsIdx j q 1).val = (q ⟨0, by rw [contr_rank h]; exact Nat.one_pos⟩).val :=
  d.lhsIdx_val_of_single h.lc j q

/-- The right operand's row is the contraction position. -/
theorem rhs_row (h : Plain d) (j : (⟨2, ![M, N]⟩ : Shape).Idx) (q : d.contr.Idx) :
    (d.rhsIdx j q 0).val = (q ⟨0, by rw [contr_rank h]; exact Nat.one_pos⟩).val :=
  d.rhsIdx_val_of_single h.rc j q

/-- The right operand's column is the result's column. -/
theorem rhs_col (h : Plain d) (j : (⟨2, ![M, N]⟩ : Shape).Idx) (q : d.contr.Idx) : (d.rhsIdx j q 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 1 _ Nat.one_lt_two (by simp [h.lb, h.ln, h.rn])

/-- The contraction's sum, re-indexed by the one contracted coordinate. -/
theorem sum_eq (h : Plain d) (l : (⟨2, ![M, K]⟩ : Shape).Idx → EReal) (r : (⟨2, ![K, N]⟩ : Shape).Idx → EReal)
    (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K (contr_rank h) (contr_size h)).symm]
  refine Finset.sum_congr rfl fun k _ => ?_
  have hk := contrEquiv1_symm_val d K (contr_rank h) (contr_size h) k
  have el : d.lhsIdx j ((contrEquiv1 d K (contr_rank h) (contr_size h)).symm k) = ix2 (j 0) k := funext fun a => Fin.ext (by
    match a with
    | ⟨0, _⟩ => exact lhs_row h _ _
    | ⟨1, _⟩ => exact (lhs_col h _ _).trans hk)
  have er : d.rhsIdx j ((contrEquiv1 d K (contr_rank h) (contr_size h)).symm k) = ix2 k (j 1) := funext fun a => Fin.ext (by
    match a with
    | ⟨0, _⟩ => exact (rhs_row h _ _).trans hk
    | ⟨1, _⟩ => exact rhs_col h _ _)
  exact congrArg₂ (· * ·) (congrArg l el) (congrArg r er)

/-- The vector unit's product into the zero accumulator, at an index. -/
theorem matmul_zero_apply (h : Plain d) {φ₁ φ₂ : FTy} (prec : Option ContractPrecision)
    (l : FVec Ideal (⟨2, ![M, K]⟩ : Shape) φ₁) (r : FVec Ideal (⟨2, ![K, N]⟩ : Shape) φ₂) (j : (⟨2, ![M, N]⟩ : Shape).Idx) :
    FloatOps.matmul d prec l r (constant (⟨2, ![M, N]⟩ : Shape) .f32 0x00000000#32) j = ∑ k : Fin K, l (ix2 (j 0) k) * r (ix2 k (j 1)) :=
  (Ideal.matmul_constant_zero_apply d prec l r j).trans (sum_eq h l r j)

/-- The host's dot product, at an index. -/
theorem dotGeneral_apply (h : Plain d) {φ₁ φ₂ : FTy} (prec : Option ContractPrecision) (sched : HostSchedule)
    (l : FVec Ideal (⟨2, ![M, K]⟩ : Shape) φ₁) (r : FVec Ideal (⟨2, ![K, N]⟩ : Shape) φ₂) (j : (⟨2, ![M, N]⟩ : Shape).Idx) :
    FloatOps.dotGeneral d prec sched l r j = ∑ k : Fin K, l (ix2 (j 0) k) * r (ix2 k (j 1)) :=
  (Ideal.dotGeneral_apply d prec sched l r j).trans (sum_eq h l r j)

end Cert.Lib.PlainDot

end
-- ==== Proof.Region0.lean ====
/-
  The first dense region of the kernel program: the product of the input with the first weights, in ten blocks of
  5000 rows. Each point loads 5000 rows of the input and all of the weights and stores their product; row r of a
  product reads only row r of its left operand, so the ten stored blocks are the blocks of the product of the whole
  arrays, and they tile the output.
-/
import proofs.«153673_j30485677867756_1_alg».proof.Proof.Gen.KernelIdeal.Frame
import proofs.«153673_j30485677867756_1_alg».proof.Proof.Spec
import proofs.«153673_j30485677867756_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Dense1

open Cert.KernelIdeal Cert.KernelIdeal.Gen Cert.Gcn

variable (V : (c : Dev nD) → (b : Ref sig .tc) → Buf (Elt Ideal) ((c : Thread nD τ).loc b))

/-- The zero offsets of a whole-block access, as a constant function. -/
theorem zero_offsets : (![0, 0] : Fin 2 → Nat) = fun _ => 0 := funext fun a => by fin_cases a <;> rfl

/-- The layer's product contracts the left operand's columns with the right operand's rows, and has no batch axes. -/
theorem plain_product : Cert.Lib.PlainDot.Plain dot_S5000x128_S128x128_S5000x128_1_0_0_1_n_n :=
  ⟨rfl, rfl, rfl, rfl, rfl, rfl⟩

/-- The body's payload at row p, column q of a block: the sum over k of x (p, k) · w (k, q). Rounding both operands
    to the narrower format is the identity on the extended reals. -/
theorem payload_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  exact Cert.Lib.PlainDot.matmul_zero_apply plain_product none _ _ (ix2 p q)

/-- A block whose row p is row (i 0) of x, read against a block whose column q is column (i 1) of w: the payload at
    (p, q) is the product of x and w at i. -/
theorem payload_rows (x0 : Vec Ideal S5000x128 .f32) (x1 : Vec Ideal S128x128 .f32)
    (x : S50000x128.Idx → EReal) (w : S128x128.Idx → EReal) (p : Fin 5000) (q : Fin 128) (i : S50000x128.Idx)
    (hx : ∀ k : Fin 128, x0 (ix2 p k) = x (ix2 (i 0) k)) (hw : ∀ k : Fin 128, x1 (ix2 k q) = w (ix2 k (i 1))) :
    k0_pay1 (F := Ideal) x0 x1 (ix2 p q) = dense x w i := by
  rw [payload_apply]
  unfold dense
  exact Finset.sum_congr rfl fun k _ => by rw [hx k, hw k]

/-- The block indices over the grid: at point t the rows' block index of the input and of the output is t, every
    column block index is 0, and the weights' block is (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two arrays. -/
theorem block_written (c : Dev nD) (t : Fin cfg0.N) :
    (dat0 (F := Ideal) V c).flushed 2 t
      = ((cfg0.win 2).blk t).view.read (Elt Ideal) (dense (V c main_arg0 : S50000x128.Idx → EReal) (V c main_arg2 : S128x128.Idx → EReal) : S50000x128.Idx → EReal) := by
  show (cfg0.win 2).cut (grid0.coords t) ((dat0 (F := Ideal) V c).after 2 t) = _
  rw [after0_2]
  unfold out0_2
  rw [View.canon_unit_zero zero_offsets]
  simp only [View.ld_unit_zero (S := S5000x128) zero_offsets, View.ld_unit_zero (S := S128x128) zero_offsets]
  obtain ⟨e0, e1, e2, e3, e4, e5⟩ := block_indices t
  refine funext fun (y : S5000x128.Idx) => ?_
  obtain ⟨p, q, rfl⟩ : ∃ (p : Fin 5000) (q : Fin 128), y = ix2 p q := ⟨y 0, y 1, eq_ix2 y⟩
  show k0_pay1 (F := Ideal) (iblk0 V c 0 t) (iblk0 V c 1 t) (ix2 p q)
    = dense (V c main_arg0 : S50000x128.Idx → EReal) (V c main_arg2 : S128x128.Idx → EReal) (((cfg0.win 2).blk t).view.emb (ix2 p q))
  refine payload_rows (iblk0 V c 0 t) (iblk0 V c 1 t) (V c main_arg0) (V c main_arg2) p q _ (fun k => ?_) (fun k => ?_)
  · show V c main_arg0 (((cfg0.win 0).blk t).view.emb (ix2 p k)) = V c main_arg0 (ix2 ((((cfg0.win 2).blk t).view.emb (ix2 p q)) 0) k)
    refine congrArg _ (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  · show V c main_arg2 (((cfg0.win 1).blk t).view.emb (ix2 k q)) = V c main_arg2 (ix2 k ((((cfg0.win 2).blk t).view.emb (ix2 p q)) 1))
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega

/-- An index of the array is in point t's block iff each coordinate is in the block's range on its axis. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v4).slice (win0_2.rect t)).set ↔ _
  rw [View.set_slice_whole, Rect.mem_set_unit]
  exact Iff.rfl

/-- The ten blocks of 5000 rows fill the 50000 rows: row r is in the block of point r / 5000, and every point
    writes its block back. -/
theorem rows_covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  obtain ⟨t, ht⟩ : ∃ t : Fin cfg0.N, t.val = (i 0).val / 5000 :=
    ⟨⟨(i 0).val / 5000, by show (i 0).val / 5000 < grid0.N; rw [hN]; omega⟩, rfl⟩
  obtain ⟨e0, e1, e2, e3, e4, e5⟩ := block_indices t
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region: the product of the input array with the weights, as the region finds them. -/
theorem final (c : Dev nD) :
    (dat0 (F := Ideal) V c).arrAt 2 cfg0.N
      = (dense (V c main_arg0 : S50000x128.Idx → EReal) (V c main_arg2 : S128x128.Idx → EReal) : S50000x128.Idx → EReal) :=
  (dat0 (F := Ideal) V c).arrAt_eq_of_cover 2 _ (fun t _ => block_written V c t) rows_covered

end Cert.KernelIdeal.Dense1

end
-- ==== Proof.Region1.lean ====
/-
  The second dense region of the kernel program: max (aggregate + bias row, 0) times the second weights, in ten
  blocks of 5000 rows. Each point loads 5000 rows of the aggregate, the one bias row and all of the weights, and stores
  the product of the clamped sum with the weights; row r of the result reads only row r of the aggregate, so the ten
  stored blocks are the blocks of the whole-array result, and they tile the output.
-/
import proofs.«153673_j30485677867756_1_alg».proof.Proof.Gen.KernelIdeal.Frame
import proofs.«153673_j30485677867756_1_alg».proof.Proof.Spec
import proofs.«153673_j30485677867756_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Dense2

open Cert.KernelIdeal Cert.KernelIdeal.Gen Cert.Gcn

variable (V : (c : Dev nD) → (b : Ref sig .tc) → Buf (Elt Ideal) ((c : Thread nD τ).loc b))

/-- The zero offsets, as a constant function. -/
theorem off_zero : (![0, 0] : Fin 2 → Nat) = fun _ => 0 := funext fun a => by fin_cases a <;> rfl

/-- The product's dimension numbers are those of a plain [5000, 128] × [128, 40] product. -/
theorem plain : Cert.Lib.PlainDot.Plain dot_S5000x128_S128x40_S5000x40_1_0_0_1_n_n := ⟨rfl, rfl, rfl, rfl, rfl, rfl⟩

/-- The body's result at row p, column q of its block: the sum over k of max (x0 (p, k) + x1 (0, k), 0) · x2 (k, q). -/
theorem pay_apply (x0 : Vec Ideal S5000x128 .f32) (x1 : Vec Ideal S1x128 .f32) (x2 : Vec Ideal S128x40 .f32)
    (p : Fin 5000) (q : Fin 40) :
    k1_pay1 (F := Ideal) x0 x1 x2 (ix2 p q)
      = ∑ k : Fin 128, max (x0 (ix2 p k) + x1 (ix2 (0 : Fin 1) k)) 0 * x2 (ix2 k q) := by
  unfold k1_pay1
  refine (Cert.Lib.PlainDot.matmul_zero_apply plain none _ _ (ix2 p q)).trans ?_
  refine Finset.sum_congr rfl fun k _ => ?_
  rw [truncf_apply, truncf_apply, maximumf_apply, addf_apply, broadcast_apply, shapeCast_self, shapeCast_self,
    broadcastTo_1b_ab_apply]
  show max (x0 (ix2 p k) + x1 (ix2 (0 : Fin 1) k)) (Ideal.ofBits .f32 0x00000000#32) * x2 (ix2 k q) = _
  rw [Ideal.ofBits_zero_f32]

/-- When the three blocks are rows n·5000 … of a, all of b and all of w, the body's result at (p, q) is the dense
    layer of the clamped sum at row n·5000 + p, column q. -/
theorem pay_rows (a : S50000x128.Idx → EReal) (b : S1x128.Idx → EReal) (w : S128x40.Idx → EReal)
    (x0 : Vec Ideal S5000x128 .f32) (x1 : Vec Ideal S1x128 .f32) (x2 : Vec Ideal S128x40 .f32)
    (p : Fin 5000) (q : Fin 40) (r : Fin 50000)
    (h0 : ∀ k : Fin 128, x0 (ix2 p k) = a (ix2 r k))
    (h1 : ∀ k : Fin 128, x1 (ix2 (0 : Fin 1) k) = b (ix2 (0 : Fin 1) k))
    (h2 : ∀ k : Fin 128, x2 (ix2 k q) = w (ix2 k q)) :
    k1_pay1 (F := Ideal) x0 x1 x2 (ix2 p q) = dense (biasRelu a b) w (ix2 r q) := by
  rw [pay_apply]
  unfold dense biasRelu
  refine Finset.sum_congr rfl fun k _ => ?_
  rw [h0 k, h1 k, h2 k]

/-- The index maps over the grid: the row blocks of windows 0 and 3 move with the point, windows 1 and 2 stay at
    block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the dense layer of the clamped sum of the arrays as the region finds them. -/
theorem flushed_eq (c : Dev nD) (t : Fin cfg1.N) :
    (dat1 (F := Ideal) V c).flushed 3 t = ((cfg1.win 3).blk t).view.read (Elt Ideal)
      (dense (biasRelu (V c main_v14 : S50000x128.Idx → EReal) (V c main_v15 : S1x128.Idx → EReal))
          (V c main_arg4 : S128x40.Idx → EReal) : S50000x40.Idx → EReal) := by
  show (cfg1.win 3).cut (grid1.coords t) ((dat1 (F := Ideal) V c).after 3 t) = _
  rw [after1_3]
  unfold out1_3
  rw [View.canon_unit_zero off_zero]
  simp only [View.ld_unit_zero (S := S5000x128) off_zero, View.ld_unit_zero (S := S1x128) off_zero,
    View.ld_unit_zero (S := S128x40) off_zero]
  obtain ⟨e00, e01, e10, e11, e20, e21, e30, e31⟩ := idx_facts t
  have ht : t.val < 10 := t.isLt
  funext y
  obtain ⟨p, q, rfl⟩ : ∃ (p : Fin 5000) (q : Fin 40), y = ix2 p q := ⟨y 0, y 1, eq_ix2 y⟩
  have hr : t.val * 5000 + p.val < 50000 := by have := p.isLt; omega
  show k1_pay1 (F := Ideal) (iblk1 V c 0 t) (iblk1 V c 1 t) (iblk1 V c 2 t) (ix2 p q)
    = dense (biasRelu (V c main_v14 : S50000x128.Idx → EReal) (V c main_v15 : S1x128.Idx → EReal))
        (V c main_arg4 : S128x40.Idx → EReal) (((cfg1.win 3).blk t).view.emb (ix2 p q))
  have hy : ((cfg1.win 3).blk t).view.emb (ix2 p q) = (ix2 (⟨t.val * 5000 + p.val, hr⟩ : Fin 50000) q : S50000x40.Idx) := by
    funext ax; apply Fin.ext
    match ax with
    | ⟨0, _⟩ => show win1_3.index t (0 : Fin 2) * 5000 + 1 * p.val = t.val * 5000 + p.val; rw [e30]; omega
    | ⟨1, _⟩ => show win1_3.index t (1 : Fin 2) * 40 + 1 * q.val = q.val; rw [e31]; omega
  rw [hy]
  refine pay_rows _ _ _ _ _ _ p q ⟨t.val * 5000 + p.val, hr⟩ (fun k => ?_) (fun k => ?_) (fun k => ?_)
  · show V c main_v14 (((cfg1.win 0).blk t).view.emb (ix2 p k)) = V c main_v14 (ix2 (⟨t.val * 5000 + p.val, hr⟩ : Fin 50000) k)
    refine congrArg _ (funext fun ax => Fin.ext ?_)
    match ax with
    | ⟨0, _⟩ => show win1_0.index t (0 : Fin 2) * 5000 + 1 * p.val = t.val * 5000 + p.val; rw [e00]; omega
    | ⟨1, _⟩ => show win1_0.index t (1 : Fin 2) * 128 + 1 * k.val = k.val; rw [e01]; omega
  · show V c main_v15 (((cfg1.win 1).blk t).view.emb (ix2 (0 : Fin 1) k)) = V c main_v15 (ix2 (0 : Fin 1) k)
    refine congrArg _ (funext fun ax => Fin.ext ?_)
    match ax with
    | ⟨0, _⟩ => show win1_1.index t (0 : Fin 2) * 1 + 1 * 0 = 0; rw [e10]
    | ⟨1, _⟩ => show win1_1.index t (1 : Fin 2) * 128 + 1 * k.val = k.val; rw [e11]; omega
  · show V c main_arg4 (((cfg1.win 2).blk t).view.emb (ix2 k q)) = V c main_arg4 (ix2 k q)
    refine congrArg _ (funext fun ax => Fin.ext ?_)
    match ax with
    | ⟨0, _⟩ => show win1_2.index t (0 : Fin 2) * 128 + 1 * k.val = k.val; rw [e20]; omega
    | ⟨1, _⟩ => show win1_2.index t (1 : Fin 2) * 40 + 1 * q.val = q.val; rw [e21]; omega

/-- An index of the output array is in point t's block iff each coordinate is in the block's range on its axis. -/
theorem mem_blk (t : Fin cfg1.N) (i : S50000x40.Idx) :
    i ∈ ((cfg1.win 3).blk t).view.set ↔ ∀ a : Fin 2, win1_3.index t a * S5000x40.size a ≤ (i a).val ∧ (i a).val < win1_3.index t a * S5000x40.size a + S5000x40.size a := by
  show i ∈ ((View.whole main_v16).slice (win1_3.rect t)).set ↔ _
  rw [View.set_slice_whole, Rect.mem_set_unit]
  exact Iff.rfl

/-- Row r of the output array is in the block of point r / 5000, and every point writes its block back. -/
theorem covered (i : S50000x40.Idx) :
    ∃ t : Fin cfg1.N, (cfg1.win 3).flush t = true ∧ i ∈ ((cfg1.win 3).blk t).view.set := by
  have hi0 : (i 0).val < 50000 := (i 0).isLt
  have hi1 : (i 1).val < 40 := (i 1).isLt
  have hN : cfg1.N = 10 := N_1
  let t : Fin cfg1.N := ⟨(i 0).val / 5000, by rw [hN]; omega⟩
  obtain ⟨e00, e01, e10, e11, e20, e21, e30, e31⟩ := idx_facts t
  have e30' : win1_3.index t (0 : Fin 2) = (i 0).val / 5000 := e30
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; rw [e30']; omega
  | ⟨1, _⟩ => show win1_3.index t (1 : Fin 2) * 40 ≤ (i 1).val ∧ (i 1).val < win1_3.index t (1 : Fin 2) * 40 + 40; rw [e31]; omega

/-- The output array after the region: the product of max (aggregate + bias row, 0) with the weights, as the region
    finds the three arrays. -/
theorem final (c : Dev nD) :
    (dat1 (F := Ideal) V c).arrAt 3 cfg1.N
      = (dense (biasRelu (V c main_v14 : S50000x128.Idx → EReal) (V c main_v15 : S1x128.Idx → EReal))
          (V c main_arg4 : S128x40.Idx → EReal) : S50000x40.Idx → EReal) := by
  exact (dat1 (F := Ideal) V c).arrAt_eq_of_cover 3 _ (fun t _ => flushed_eq V c t) covered

end Cert.KernelIdeal.Dense2

end
-- ==== Proof.LibKeepdims.lean ====
/-
  Two layout operations of a row reduction kept as a column (`keepdims`), read at an index: a vector `[a]` recast as a
  column `[a, 1]`, and a column `[a, 1]` broadcast along the rows of `[a, b]`.  Composed, entry `(p, c)` of the
  broadcast of the recast vector is entry `p` of the vector.
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An `[a]` array recast as the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- So a vector recast as a column and broadcast along the rows reads, at `(p, c)`, the vector at `p`. -/
theorem broadcastTo_shapeCast_column_apply {a b : ℕ} (x : (⟨1, ![a]⟩ : Shape).Idx → α)
    (h : (⟨1, ![a]⟩ : Shape).ShapeCasts ⟨2, ![a, 1]⟩) (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) := by
  rw [broadcastTo_a1_ab_apply, shapeCast_a_a1_apply]

end Cert.LibKeepdims
-- ==== Proof.Region2.lean ====
/-
  Region 2 of the kernel program: the row-wise log-softmax of the aggregate with the one-row array added. Each of the ten
  points loads 5000 rows of the aggregate and the one row, and stores the log-softmax of each loaded row with the one row
  added; the log-softmax of a row reads only that row, so the ten stored blocks are the blocks of the log-softmax of the
  whole array, and they tile it.
-/
import proofs.«153673_j30485677867756_1_alg».proof.Proof.Gen.KernelIdeal.Frame
import proofs.«153673_j30485677867756_1_alg».proof.Proof.Spec
import proofs.«153673_j30485677867756_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Softmax

open Cert.KernelIdeal Cert.KernelIdeal.Gen Cert.Gcn

/-- The index a row reduction inserts coordinate k into, at row p, is (p, k). -/
theorem lift_row (h : S5000x40.Reduces [1] S5000) (p : Fin 5000) (k : Fin 40) :
    h.lift (ix1 p) k = ix2 p k :=
  funext fun a => Fin.ext (by match a with | ⟨0, _⟩ => rfl | ⟨1, _⟩ => rfl)

/-- The word of −∞ read at the extended reals is ⊥. -/
theorem ofBits_neg_inf : Ideal.ofBits .f32 0xFF800000#32 = (⊥ : EReal) := by
  simp [Ideal.ofBits, Ideal.ieee]

/-- A row's maximum from −∞, as the reduction computes it. -/
theorem rowMax_reduction (z : FVec Ideal S5000x40 .f32) (h : S5000x40.Reduces [1] S5000) (hφ : FKind.Formats .f32)
    (hacc : (0xFF800000#32 : BitVec 32) = FKind.maximumf.neutral .f32 hφ) (p : Fin 5000) :
    multiReduction (F := Ideal) .maximumf [1] S5000 z 0xFF800000#32 h hφ hacc (ix1 p)
      = rowMax (z : S5000x40.Idx → EReal) p := by
  refine (Ideal.multiReduction_maximumf_single z 0xFF800000#32 h hφ hacc (ix1 p)).trans ?_
  unfold rowMax
  show (Finset.univ : Finset (Fin 40)).fold max (Ideal.ofBits .f32 0xFF800000#32) (fun k => z (h.lift (ix1 p) k)) = _
  rw [ofBits_neg_inf]
  exact congrArg (fun f => (Finset.univ : Finset (Fin 40)).fold max (⊥ : EReal) f) (funext fun k => congrArg z (lift_row h p k))

/-- A row's sum, as the reduction computes it. -/
theorem rowSum_reduction (e : FVec Ideal S5000x40 .f32) (h : S5000x40.Reduces [1] S5000) (hφ : FKind.Formats .f32)
    (hacc : (0x00000000#32 : BitVec 32) = FKind.add.neutral .f32 hφ) (p : Fin 5000) :
    multiReduction (F := Ideal) .add [1] S5000 e 0x00000000#32 h hφ hacc (ix1 p)
      = ∑ k : Fin 40, (e : S5000x40.Idx → EReal) (ix2 p k) := by
  refine (Ideal.multiReduction_add_single e 0x00000000#32 h hφ hacc (ix1 p)).trans ?_
  show ∑ k : Fin 40, e (h.lift (ix1 p) k) = _
  exact Finset.sum_congr rfl fun k _ => congrArg e (lift_row h p k)

/-- The block's payload at row p, column q: the log-softmax of row p of the block with the one-row array added. -/
theorem payload_apply (x0 : Vec Ideal S5000x40 .f32) (x1 : Vec Ideal S1x40 .f32) (p : Fin 5000) (q : Fin 40) :
    k2_pay1 (F := Ideal) x0 x1 (ix2 p q)
      = logSoftmaxRows (addRow (x0 : S5000x40.Idx → EReal) (x1 : S1x40.Idx → EReal)) (ix2 p q) := by
  have hz : addf (F := Ideal) (φ := .f32) (shapeCast S5000x40 x0 shapeCasts_S5000x40_S5000x40)
        (broadcastTo S5000x40 (shapeCast S1x40 x1 shapeCasts_S1x40_S1x40) broadcasts_S1x40_S5000x40)
      = (addRow (x0 : S5000x40.Idx → EReal) (x1 : S1x40.Idx → EReal) : FVec Ideal S5000x40 .f32) := by
    funext y
    obtain ⟨r, j, rfl⟩ : ∃ (r : Fin 5000) (j : Fin 40), y = ix2 r j := ⟨y 0, y 1, eq_ix2 y⟩
    rw [addf_apply, shapeCast_self, shapeCast_self, broadcastTo_1b_ab_apply]
    rfl
  unfold k2_pay1
  simp only []
  rw [hz]
  generalize (addRow (x0 : S5000x40.Idx → EReal) (x1 : S1x40.Idx → EReal) : FVec Ideal S5000x40 .f32) = z
  have hM : ∀ (r : Fin 5000) (j : Fin 40),
      broadcastTo S5000x40 (shapeCast S5000x1 (multiReduction (F := Ideal) .maximumf [1] S5000 z 0xFF800000#32
        reduces_S5000x40_S5000 (.inl rfl) rfl) shapeCasts_S5000_S5000x1) broadcasts_S5000x1_S5000x40 (ix2 r j)
        = rowMax (z : S5000x40.Idx → EReal) r := fun r j => by
    rw [LibKeepdims.broadcastTo_shapeCast_column_apply]
    exact rowMax_reduction z _ _ _ r
  rw [subf_apply, subf_apply, hM, LibKeepdims.broadcastTo_a1_ab_apply]
  show _ - _ - Ideal.log (shapeCast S5000x1 _ shapeCasts_S5000_S5000x1 (ix2 p (0 : Fin 1))) = _
  rw [LibKeepdims.shapeCast_a_a1_apply]
  refine (congrArg (fun s => z (ix2 p q) - rowMax (z : S5000x40.Idx → EReal) p - Ideal.log s) (rowSum_reduction _ _ _ _ p)).trans ?_
  unfold logSoftmaxRows rowExpSum
  show _ = z (ix2 p q) - rowMax z p - Ideal.log (∑ j : Fin 40, Ideal.exp (z (ix2 p j) - rowMax z p))
  refine congrArg (fun s => z (ix2 p q) - rowMax (z : S5000x40.Idx → EReal) p - Ideal.log s) (Finset.sum_congr rfl fun k _ => ?_)
  show Ideal.exp (subf (F := Ideal) (φ := .f32) _ _ (ix2 p k)) = _
  rw [subf_apply, hM]

/-- The log-softmax at row r reads only row r: two arrays that agree on a row of each have equal entries there. -/
theorem logSoftmaxRows_row {M M' N : Nat} (z : (⟨2, ![M, N]⟩ : Shape).Idx → EReal) (z' : (⟨2, ![M', N]⟩ : Shape).Idx → EReal)
    (r : Fin M) (r' : Fin M') (h : ∀ j : Fin N, z (ix2 r j) = z' (ix2 r' j)) (q : Fin N) :
    logSoftmaxRows z (ix2 r q) = logSoftmaxRows z' (ix2 r' q) := by
  have hm : rowMax z r = rowMax z' r' := by
    unfold rowMax
    exact congrArg (fun f => (Finset.univ : Finset (Fin N)).fold max (⊥ : EReal) f) (funext h)
  have hs : rowExpSum z r = rowExpSum z' r' := by
    unfold rowExpSum
    rw [hm]
    exact Finset.sum_congr rfl fun j _ => by rw [h j]
  show (z (ix2 r q) - rowMax z r) - Ideal.log (rowExpSum z r) = (z' (ix2 r' q) - rowMax z' r') - Ideal.log (rowExpSum z' r')
  rw [hm, hs, h q]

/-- Row r of a block with the one-row array added is row r' of the whole array with it added, when the block's row r
    is the array's row r'. -/
theorem addRow_row {M M' N : Nat} (a : (⟨2, ![M, N]⟩ : Shape).Idx → EReal) (a' : (⟨2, ![M', N]⟩ : Shape).Idx → EReal)
    (b b' : (⟨2, ![1, N]⟩ : Shape).Idx → EReal) (r : Fin M) (r' : Fin M')
    (ha : ∀ j : Fin N, a (ix2 r j) = a' (ix2 r' j)) (hb : ∀ j : Fin N, b (ix2 (0 : Fin 1) j) = b' (ix2 (0 : Fin 1) j)) (j : Fin N) :
    addRow a b (ix2 r j) = addRow a' b' (ix2 r' j) := by
  show a (ix2 r j) + b (ix2 (0 : Fin 1) j) = a' (ix2 r' j) + b' (ix2 (0 : Fin 1) j)
  rw [ha j, hb j]

/-- The two zero offsets of a whole-block access, as a constant function. -/
theorem offsets_zero : (![0, 0] : Fin 2 → Nat) = fun _ => 0 := funext fun a => by fin_cases a <;> rfl

/-- The windows' block indices over the grid: point t takes row block t of the aggregate and of the output, and the
    one block of the one-row array. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- An index of the output array is in point t's block iff each coordinate is in the block's range on its axis. -/
theorem mem_block (t : Fin cfg2.N) (i : S50000x40.Idx) :
    i ∈ ((cfg2.win 2).blk t).view.set ↔ ∀ a : Fin 2, win2_2.index t a * S5000x40.size a ≤ (i a).val
      ∧ (i a).val < win2_2.index t a * S5000x40.size a + S5000x40.size a := by
  show i ∈ ((View.whole main_v28).slice (win2_2.rect t)).set ↔ _
  rw [View.set_slice_whole, Rect.mem_set_unit]
  exact Iff.rfl

variable (V : (c : Dev nD) → (b : Ref sig .tc) → Buf (Elt Ideal) ((c : Thread nD τ).loc b))

/-- What point t writes back is block t of the log-softmax of the whole array with the one-row array added. -/
theorem flushed_eq (c : Dev nD) (t : Fin cfg2.N) :
    (dat2 (F := Ideal) V c).flushed 2 t = ((cfg2.win 2).blk t).view.read (Elt Ideal)
      (logSoftmaxRows (addRow (V c main_v26 : S50000x40.Idx → EReal) (V c main_v27 : S1x40.Idx → EReal)) : S50000x40.Idx → EReal) := by
  show (cfg2.win 2).cut (grid2.coords t) ((dat2 (F := Ideal) V c).after 2 t) = _
  rw [after2_2]
  unfold out2_2
  rw [View.canon_unit_zero offsets_zero]
  simp only [View.ld_unit_zero (S := S5000x40) offsets_zero, View.ld_unit_zero (S := S1x40) offsets_zero]
  obtain ⟨e00, e01, e10, e11, e20, e21⟩ := block_indices t
  have hN : t.val < 10 := lt_of_lt_of_eq t.isLt N_2
  funext y
  obtain ⟨p, q, rfl⟩ : ∃ (p : Fin 5000) (q : Fin 40), y = ix2 p q := ⟨y 0, y 1, eq_ix2 y⟩
  refine (payload_apply (iblk2 V c 0 t) (iblk2 V c 1 t) p q).trans ?_
  have hemb : ((cfg2.win 2).blk t).view.emb (ix2 p q) = (ix2 (⟨t.val * 5000 + p.val, by omega⟩ : Fin 50000) q : S50000x40.Idx) := by
    funext a; apply Fin.ext
    match a with
    | ⟨0, _⟩ => show win2_2.index t (0 : Fin 2) * 5000 + 1 * p.val = t.val * 5000 + p.val; omega
    | ⟨1, _⟩ => show win2_2.index t (1 : Fin 2) * 40 + 1 * q.val = q.val; omega
  rw [View.read_apply, hemb]
  refine logSoftmaxRows_row _ _ p _ (fun j => addRow_row _ _ _ _ p _ (fun k => ?_) (fun k => ?_) j) q
  · show V c main_v26 (((cfg2.win 0).blk t).view.emb (ix2 p k)) = V c main_v26 _
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 40 + 1 * k.val = k.val; omega
  · show V c main_v27 (((cfg2.win 1).blk t).view.emb (ix2 (0 : Fin 1) k)) = V c main_v27 _
    refine congrArg _ (funext fun a => Fin.ext ?_)
    match a with
    | ⟨0, _⟩ => show win2_1.index t (0 : Fin 2) * 1 + 1 * (0 : Fin 1).val = (0 : Fin 1).val; omega
    | ⟨1, _⟩ => show win2_1.index t (1 : Fin 2) * 40 + 1 * k.val = k.val; omega

/-- The output array after the region: the log-softmax of each row of the aggregate with the one-row array added;
    every row is in the block of the point its number divided by 5000 names, and every point writes its block back. -/
theorem final (c : Dev nD) :
    (dat2 (F := Ideal) V c).arrAt 2 cfg2.N
      = (logSoftmaxRows (addRow (V c main_v26 : S50000x40.Idx → EReal) (V c main_v27 : S1x40.Idx → EReal)) : S50000x40.Idx → EReal) :=
  (dat2 (F := Ideal) V c).arrAt_eq_of_cover 2 _ (fun t _ => flushed_eq V c t) fun i => by
    have hi0 : (i 0).val < 50000 := (i 0).isLt
    have hi1 : (i 1).val < 40 := (i 1).isLt
    obtain ⟨t, ht⟩ : ∃ t : Fin cfg2.N, t.val = (i 0).val / 5000 :=
      ⟨⟨(i 0).val / 5000, lt_of_lt_of_eq (by omega : (i 0).val / 5000 < 10) N_2.symm⟩, rfl⟩
    obtain ⟨e00, e01, e10, e11, e20, e21⟩ := block_indices t
    refine ⟨t, flush2_2 t, ?_⟩
    rw [mem_block]
    intro a
    match a with
    | ⟨0, _⟩ =>
      show win2_2.index t (0 : Fin 2) * 5000 ≤ (i 0).val ∧ (i 0).val < win2_2.index t (0 : Fin 2) * 5000 + 5000
      omega
    | ⟨1, _⟩ =>
      show win2_2.index t (1 : Fin 2) * 40 ≤ (i 1).val ∧ (i 1).val < win2_2.index t (1 : Fin 2) * 40 + 40
      omega

end Cert.KernelIdeal.Softmax

end
-- ==== Proof.HostChain.lean ====
/-
  The host operations between the three dense regions, read back.

  Between the regions the program gathers, for every edge (s, d) of the graph, row s of the layer's output (a negative
  s wrapped around by the node count) and adds it into row d of a zero array: the sum over the edges into d of the
  rows at their sources. The same edge list serves both layers. This file reads each stretch of host operations at
  the buffers the next region takes — the aggregated array, the bias recast as one row, the weights — from the
  contents the stretch starts at, and follows the edge list, the biases and the weights back to the launch memory
  through the regions and stretches that do not write them.
-/
import proofs.«153673_j30485677867756_1_alg».proof.Proof.Gen.KernelIdeal.Frame
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable {F : FTy → Type} [FloatOps F]

/-- Row 0 of the edge list, flat: the source node of each edge. -/
def srcFlat (e : (⟨S2x800000, .i32⟩ : BufTy).Contents (Elt F)) : (⟨S800000, .i32⟩ : BufTy).Contents (Elt F) :=
  shapeCast S800000 (extractStridedSlice S1x800000 ![0, 0] e slices_S2x800000_S1x800000_0_0) shapeCasts_S1x800000_S800000

/-- Row 1 of the edge list, flat: the destination node of each edge. -/
def dstFlat (e : (⟨S2x800000, .i32⟩ : BufTy).Contents (Elt F)) : (⟨S800000, .i32⟩ : BufTy).Contents (Elt F) :=
  shapeCast S800000 (extractStridedSlice S1x800000 ![1, 0] e slices_S2x800000_S1x800000_1_0) shapeCasts_S1x800000_S800000

/-- The sources as a column of start indices, a negative one wrapped around by the node count. -/
def srcCol (s : (⟨S800000, .i32⟩ : BufTy).Contents (Elt F)) : (⟨S800000x1, .i32⟩ : BufTy).Contents (Elt F) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The destinations as a column of scatter indices. -/
def dstCol (d : (⟨S800000, .i32⟩ : BufTy).Contents (Elt F)) : (⟨S800000x1, .i32⟩ : BufTy).Contents (Elt F) :=
  broadcastInDim S800000x1 ![0] bcast_S800000_S800000x1_0 d

/-- The aggregation of a [50000, 128] array over the edges: rows gathered at the sources, added at the destinations. -/
def agg128 (s d : (⟨S800000, .i32⟩ : BufTy).Contents (Elt F)) (h : (⟨S50000x128, .f32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32)) (dstCol d)
    (Host.gather gather_S50000x128_S800000x1_S800000x128_1_0_n_n_0_1_1128 h (srcCol s))

/-- The aggregation of a [50000, 40] array over the edges. -/
def agg40 (s d : (⟨S800000, .i32⟩ : BufTy).Contents (Elt F)) (h : (⟨S50000x40, .f32⟩ : BufTy).Contents (Elt F)) :
    (⟨S50000x40, .f32⟩ : BufTy).Contents (Elt F) :=
  Host.scatterAdd scatter_S50000x40_S800000x1_S800000x40_1_0_0_1
    (broadcastInDim S50000x40 ![] bcast_S_S50000x40 (constant S_ .f32 0x00000000#32)) (dstCol d)
    (Host.gather gather_S50000x40_S800000x1_S800000x40_1_0_n_n_0_1_140 h (srcCol s))

variable (m : (ℓ : Loc nD τ sig) → Buf (Elt F) ℓ) (ρ : Dev nD → PrngReg)

/-! ## Before the first region -/

theorem W1_v1 (c : Dev nD) : W1 m ρ c (Proc.devRef .tc main_v1) = srcFlat (m ((c : Thread nD τ).loc main_arg1)) := by
  show StableHlo.after hostOps0 (W0 m ρ c) (Proc.devRef .tc main_v1) = _
  after_results
  rfl

theorem W1_v3 (c : Dev nD) : W1 m ρ c (Proc.devRef .tc main_v3) = dstFlat (m ((c : Thread nD τ).loc main_arg1)) := by
  show StableHlo.after hostOps0 (W0 m ρ c) (Proc.devRef .tc main_v3) = _
  after_results
  rfl

theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results
theorem W1_arg3 (c : Dev nD) : W1 m ρ c (Proc.devRef .tc main_arg3) = m ((c : Thread nD τ).loc main_arg3) := by
  show StableHlo.after hostOps0 (W0 m ρ c) (Proc.devRef .tc main_arg3) = _
  after_results
theorem W1_arg4 (c : Dev nD) : W1 m ρ c (Proc.devRef .tc main_arg4) = m ((c : Thread nD τ).loc main_arg4) := by
  show StableHlo.after hostOps0 (W0 m ρ c) (Proc.devRef .tc main_arg4) = _
  after_results
theorem W1_arg5 (c : Dev nD) : W1 m ρ c (Proc.devRef .tc main_arg5) = m ((c : Thread nD τ).loc main_arg5) := by
  show StableHlo.after hostOps0 (W0 m ρ c) (Proc.devRef .tc main_arg5) = _
  after_results

/-! ## Through the first region: it writes only its output array -/

theorem W2_v4 (c : Dev nD) : W2 m ρ c (Proc.devRef .tc main_v4) = (dat0 (V1 m ρ) c).arrAt 2 cfg0.N := W2_arr m ρ c 2
theorem W2_v1 (c : Dev nD) : W2 m ρ c (Proc.devRef .tc main_v1) = srcFlat (m ((c : Thread nD τ).loc main_arg1)) :=
  (W2_of_ne m ρ c main_v1 (by decide)).trans (W1_v1 m ρ c)
theorem W2_v3 (c : Dev nD) : W2 m ρ c (Proc.devRef .tc main_v3) = dstFlat (m ((c : Thread nD τ).loc main_arg1)) :=
  (W2_of_ne m ρ c main_v3 (by decide)).trans (W1_v3 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)

/-! ## The stretch before the second region -/

theorem W3_v14 (c : Dev nD) : W3 m ρ c (Proc.devRef .tc main_v14)
    = agg128 (srcFlat (m ((c : Thread nD τ).loc main_arg1))) (dstFlat (m ((c : Thread nD τ).loc main_arg1))) ((dat0 (V1 m ρ) c).arrAt 2 cfg0.N) := by
  show StableHlo.after hostOps1 (W2 m ρ c) (Proc.devRef .tc main_v14) = _
  after_results
  rw [W2_v1, W2_v3, W2_v4]
  rfl
theorem W3_v15 (c : Dev nD) : W3 m ρ c (Proc.devRef .tc main_v15)
    = shapeCast S1x128 (m ((c : Thread nD τ).loc main_arg3)) shapeCasts_S128_S1x128 := by
  show StableHlo.after hostOps1 (W2 m ρ c) (Proc.devRef .tc main_v15) = _
  after_results
  rw [W2_arg3]
  rfl
theorem W3_arg4 (c : Dev nD) : W3 m ρ c (Proc.devRef .tc main_arg4) = m ((c : Thread nD τ).loc main_arg4) := by
  show StableHlo.after hostOps1 (W2 m ρ c) (Proc.devRef .tc main_arg4) = _
  after_results
  exact W2_arg4 m ρ c
theorem W3_arg5 (c : Dev nD) : W3 m ρ c (Proc.devRef .tc main_arg5) = m ((c : Thread nD τ).loc main_arg5) := by
  show StableHlo.after hostOps1 (W2 m ρ c) (Proc.devRef .tc main_arg5) = _
  after_results
  exact W2_arg5 m ρ c
theorem W3_v1 (c : Dev nD) : W3 m ρ c (Proc.devRef .tc main_v1) = srcFlat (m ((c : Thread nD τ).loc main_arg1)) := by
  show StableHlo.after hostOps1 (W2 m ρ c) (Proc.devRef .tc main_v1) = _
  after_results
  exact W2_v1 m ρ c
theorem W3_v3 (c : Dev nD) : W3 m ρ c (Proc.devRef .tc main_v3) = dstFlat (m ((c : Thread nD τ).loc main_arg1)) := by
  show StableHlo.after hostOps1 (W2 m ρ c) (Proc.devRef .tc main_v3) = _
  after_results
  exact W2_v3 m ρ c

/-! ## Through the second region -/

theorem W4_v16 (c : Dev nD) : W4 m ρ c (Proc.devRef .tc main_v16) = (dat1 (V3 m ρ) c).arrAt 3 cfg1.N := W4_arr m ρ c 3
theorem W4_v1 (c : Dev nD) : W4 m ρ c (Proc.devRef .tc main_v1) = srcFlat (m ((c : Thread nD τ).loc main_arg1)) :=
  (W4_of_ne m ρ c main_v1 (by decide)).trans (W3_v1 m ρ c)
theorem W4_v3 (c : Dev nD) : W4 m ρ c (Proc.devRef .tc main_v3) = dstFlat (m ((c : Thread nD τ).loc main_arg1)) :=
  (W4_of_ne m ρ c main_v3 (by decide)).trans (W3_v3 m ρ c)
theorem W4_arg5 (c : Dev nD) : W4 m ρ c (Proc.devRef .tc main_arg5) = m ((c : Thread nD τ).loc main_arg5) :=
  (W4_of_ne m ρ c main_arg5 (by decide)).trans (W3_arg5 m ρ c)

/-! ## The stretch before the third region -/

theorem W5_v26 (c : Dev nD) : W5 m ρ c (Proc.devRef .tc main_v26)
    = agg40 (srcFlat (m ((c : Thread nD τ).loc main_arg1))) (dstFlat (m ((c : Thread nD τ).loc main_arg1))) ((dat1 (V3 m ρ) c).arrAt 3 cfg1.N) := by
  show StableHlo.after hostOps2 (W4 m ρ c) (Proc.devRef .tc main_v26) = _
  after_results
  rw [W4_v1, W4_v3, W4_v16]
  rfl
theorem W5_v27 (c : Dev nD) : W5 m ρ c (Proc.devRef .tc main_v27)
    = shapeCast S1x40 (m ((c : Thread nD τ).loc main_arg5)) shapeCasts_S40_S1x40 := by
  show StableHlo.after hostOps2 (W4 m ρ c) (Proc.devRef .tc main_v27) = _
  after_results
  rw [W4_arg5]
  rfl

/-! ## The third region's output -/

theorem W6_v28 (c : Dev nD) : W6 m ρ c (Proc.devRef .tc main_v28) = (dat2 (V5 m ρ) c).arrAt 2 cfg2.N := W6_arr m ρ c 2

end Cert.KernelIdeal.Chain

end
-- ==== Proof.RefSpec.lean ====
/-
  The reference's three dense stages, index by index. Its first product is the sum over k of x (r, k) · W1 (k, j); its
  second is the same sum over the hidden layer max (aggregate + first bias, 0); and its log-softmax subtracts from each
  logit its row's maximum (a fold of max from −∞, the extra maximum with −∞ changing nothing) and the logarithm of the
  row's sum of shifted exponentials. These are the functions the kernel program's blocks assemble to.
-/
import proofs.«153673_j30485677867756_1_alg».proof.Proof.RefRead
import proofs.«153673_j30485677867756_1_alg».proof.Proof.Spec
import proofs.«153673_j30485677867756_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.ReferenceIdeal.RefSpec

open Cert.ReferenceIdeal Cert.ReferenceIdeal.Gen Cert.ReferenceIdeal.ReadP Cert.Gcn

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 : (⟨S128x40, .f32⟩ : BufTy).Contents (Elt Ideal)) (x5 : (⟨S40, .f32⟩ : BufTy).Contents (Elt Ideal))

/-- The f32 pattern of −∞ is the least extended real. -/
private theorem negInf_f32 : Ideal.ofBits .f32 0xFF800000#32 = (⊥ : EReal) := by
  simp [Ideal.ofBits, Ideal.ieee]

/-- A maximum reduced along the second axis, started from −∞, is at row r the maximum of row r. -/
private theorem reduceMax_row (z : (⟨S50000x40, .f32⟩ : BufTy).Contents (Elt Ideal)) (j : S50000.Idx) :
    Host.reduce (FloatOps.maximumf (F := Ideal) (φ := .f32)) z (val_main_call1_cst (F := Ideal)) reducesTo_S50000x40_S50000_d1 h_S_ j
      = rowMax (z : S50000x40.Idx → EReal) (j 0) := by
  rw [Host.reduce_eq_fold_single (FloatOps.maximumf (F := Ideal) (φ := .f32)) z (val_main_call1_cst (F := Ideal)) reducesTo_S50000x40_S50000_d1
    (by decide) h_S_ j, val_main_call1_cst_apply, Ideal.ofBits_def, negInf_f32]
  unfold rowMax
  refine congrArg (fun f => (Finset.univ : Finset (Fin 40)).fold max ⊥ f) (funext fun k => ?_)
  exact congrArg z (funext fun a => Fin.ext (by match a with | ⟨0, _⟩ => rfl | ⟨1, _⟩ => rfl))

/-- The logits before the softmax are the aggregated second layer with the bias row added to every row. -/
private theorem logits_eq : val_main_v32 (F := Ideal) x0 x1 x2 x3 x4 x5
    = (addRow (val_main_v29 (F := Ideal) x0 x1 x2 x3 x4 : S50000x40.Idx → EReal) (val_main_v30 (F := Ideal) x5 : S1x40.Idx → EReal)
        : S50000x40.Idx → EReal) := by
  funext i
  rw [val_main_v32_apply, val_main_v31_apply, Ideal.addf_def]
  unfold addRow
  exact congrArg (fun j => val_main_v29 (F := Ideal) x0 x1 x2 x3 x4 i + val_main_v30 (F := Ideal) x5 j)
    (funext fun a => Fin.ext (by match a with | ⟨0, _⟩ => rfl | ⟨1, _⟩ => rfl))

/-- The row maximum stage, at row r, is the maximum of row r of the logits. -/
private theorem rowMax_stage (j : S50000.Idx) : val_main_call1_v0 (F := Ideal) x0 x1 x2 x3 x4 x5 j
    = rowMax (val_main_v32 (F := Ideal) x0 x1 x2 x3 x4 x5 : S50000x40.Idx → EReal) (j 0) := by
  unfold val_main_call1_v0
  generalize val_main_v32 (F := Ideal) x0 x1 x2 x3 x4 x5 = z
  exact reduceMax_row z j

/-- The shifted logits: each entry less its row's maximum. -/
private theorem shifted_stage (i : S50000x40.Idx) : val_main_call1_v5 (F := Ideal) x0 x1 x2 x3 x4 x5 i
    = val_main_v32 (F := Ideal) x0 x1 x2 x3 x4 x5 i
      - rowMax (val_main_v32 (F := Ideal) x0 x1 x2 x3 x4 x5 : S50000x40.Idx → EReal) (i 0) := by
  rw [val_main_call1_v5_apply, val_main_call1_v4_apply, val_main_call1_v3_apply, val_main_call1_v2_apply,
    val_main_call1_v1_apply, val_main_call1_cst_0_apply, rowMax_stage, Ideal.subf_def, Ideal.maximumf_def,
    Ideal.ofBits_def, negInf_f32, max_bot_left]
  rfl

/-- The sum stage, at row r, is the sum over row r of the exponentials of the shifted logits. -/
private theorem expSum_stage (j : S50000.Idx) : val_main_call1_v7 (F := Ideal) x0 x1 x2 x3 x4 x5 j
    = rowExpSum (val_main_v32 (F := Ideal) x0 x1 x2 x3 x4 x5 : S50000x40.Idx → EReal) (j 0) := by
  rw [val_main_call1_v7_apply, val_main_call1_cst_1_apply, Ideal.ofBits_def, Ideal.ofBits_zero_f32, zero_add]
  unfold rowExpSum
  refine Finset.sum_congr rfl fun k _ => ?_
  rw [val_main_call1_v6_apply, shifted_stage, Ideal.hostUnary_exp_def]
  have e : idx_main_call1_v7 j k = ix2 (j 0) k :=
    funext fun a => Fin.ext (by match a with | ⟨0, _⟩ => rfl | ⟨1, _⟩ => rfl)
  rewrite [e]
  rfl

/-- The hidden layer: the aggregated first layer with the bias row added to every row, clamped below at zero. -/
private theorem hidden_eq : val_main_v18 (F := Ideal) x0 x1 x2 x3
    = (biasRelu (val_main_v14 (F := Ideal) x0 x1 x2 : S50000x128.Idx → EReal) (val_main_v15 (F := Ideal) x3 : S1x128.Idx → EReal)
        : S50000x128.Idx → EReal) := by
  funext y
  rw [val_main_v18_apply, val_main_v17_apply, val_main_call0_v0_apply, val_main_call0_cst_apply, val_main_v16_apply,
    Ideal.maximumf_def, Ideal.addf_def, Ideal.ofBits_def, Ideal.ofBits_zero_f32]
  unfold biasRelu
  exact congrArg (fun j => max (val_main_v14 (F := Ideal) x0 x1 x2 y + val_main_v15 (F := Ideal) x3 j) 0)
    (funext fun a => Fin.ext (by match a with | ⟨0, _⟩ => rfl | ⟨1, _⟩ => rfl))

/-- The reference's first product is the index-by-index product of the input with the first weights. -/
theorem layer1 : val_main_v4 (F := Ideal) x0 x2 = (dense (x0 : S50000x128.Idx → EReal) (x2 : S128x128.Idx → EReal) : S50000x128.Idx → EReal) := by
  funext i
  rw [val_main_v4_apply]
  unfold dense
  refine Finset.sum_congr rfl fun k _ => ?_
  have el : lidx_main_v4 i k = ix2 (i 0) k :=
    funext fun a => Fin.ext (by match a with | ⟨0, _⟩ => rfl | ⟨1, _⟩ => rfl)
  have er : ridx_main_v4 i k = ix2 k (i 1) :=
    funext fun a => Fin.ext (by match a with | ⟨0, _⟩ => rfl | ⟨1, _⟩ => rfl)
  rewrite [el, er]
  rfl

/-- The reference's second product is the index-by-index product of the hidden layer with the second weights. -/
theorem layer2 : val_main_v19 (F := Ideal) x0 x1 x2 x3 x4
    = (dense (biasRelu (val_main_v14 (F := Ideal) x0 x1 x2 : S50000x128.Idx → EReal) (val_main_v15 (F := Ideal) x3 : S1x128.Idx → EReal))
        (x4 : S128x40.Idx → EReal) : S50000x40.Idx → EReal) := by
  funext i
  rw [val_main_v19_apply, hidden_eq]
  unfold dense
  refine Finset.sum_congr rfl fun k _ => ?_
  have el : lidx_main_v19 i k = ix2 (i 0) k :=
    funext fun a => Fin.ext (by match a with | ⟨0, _⟩ => rfl | ⟨1, _⟩ => rfl)
  have er : ridx_main_v19 i k = ix2 k (i 1) :=
    funext fun a => Fin.ext (by match a with | ⟨0, _⟩ => rfl | ⟨1, _⟩ => rfl)
  rewrite [el, er]
  rfl

/-- The reference's result is the row-wise log-softmax of the second aggregate with the second bias row added. -/
theorem output : val_main_v33 (F := Ideal) x0 x1 x2 x3 x4 x5
    = (logSoftmaxRows (addRow (val_main_v29 (F := Ideal) x0 x1 x2 x3 x4 : S50000x40.Idx → EReal) (val_main_v30 (F := Ideal) x5 : S1x40.Idx → EReal))
        : S50000x40.Idx → EReal) := by
  rw [← logits_eq]
  funext i
  rw [val_main_v33_apply, val_main_call1_v10_apply, val_main_call1_v9_apply, val_main_call1_v8_apply, shifted_stage,
    expSum_stage, Ideal.subf_def, Ideal.hostUnary_log_def]
  rfl

end Cert.ReferenceIdeal.RefSpec

end
-- ==== Proof.LibRowVector.lean ====
import Idealize.ShloMosaic.Lib.Pipeline.Value
import Idealize.ShloMosaic.Lib.ValueIdx
import Idealize.ShloMosaic.Lib.ValueLayout

noncomputable section

namespace Cert.Lib.RowVector

open Idealize.ShloMosaic Idealize.ShloMosaic.ValueIdx

/-- A vector of `n` entries reshaped to one row `[1, n]` is the vector broadcast along a new leading axis of size one:
    both hold the vector's entry `j` at `(0, j)`. -/
theorem shapeCast_row_eq_broadcastInDim {α : Type} {n : Nat}
    (x : (⟨1, ![n]⟩ : Shape).Idx → α)
    (hs : (⟨1, ![n]⟩ : Shape).ShapeCasts (⟨2, ![1, n]⟩ : Shape))
    (hb : (⟨1, ![n]⟩ : Shape).BroadcastsInDim (⟨2, ![1, n]⟩ : Shape) (![1] : Fin 1 → Fin 2)) :
    shapeCast (⟨2, ![1, n]⟩ : Shape) x hs = broadcastInDim (⟨2, ![1, n]⟩ : Shape) ![1] hb x := by
  funext j
  -- the reshaped vector at (0, j) is the vector at j
  refine (shapeCast_addUnit_apply (![n]) x hs j).trans ?_
  -- and so is the broadcast one: its source index has the one coordinate j 1
  refine (broadcastInDim_apply ![1] hb x j (fun a => j a.succ) fun a => ?_).symm
  have ha : a = 0 := Subsingleton.elim _ _
  subst ha
  have hj : (j 1).val < n := (j 1).isLt
  show (j 1).val = if n = 1 then 0 else (j 1).val
  by_cases h1 : n = 1
  · rw [if_pos h1]; omega
  · rw [if_neg h1]

end Cert.Lib.RowVector

end
-- ==== Proof.KernelValue.lean ====
/-
  The kernel program's result is the reference's, stage by stage.

  After the third region the result array is the row-wise log-softmax of (second aggregation + second bias), the
  second aggregation is over the second region's output, which is the product of max (first aggregation + first
  bias, 0) with the second weights, and the first aggregation is over the first region's output, the product of the
  input with the first weights. The reference computes the same chain on whole arrays: each dense stage is the same
  index-by-index function (a product cut into blocks of rows is the product), the aggregations are the same host
  operations applied to equal arrays, and a bias recast as one row is the bias broadcast along a new leading axis.
-/
import proofs.«153673_j30485677867756_1_alg».proof.Proof.Region0
import proofs.«153673_j30485677867756_1_alg».proof.Proof.Region1
import proofs.«153673_j30485677867756_1_alg».proof.Proof.Region2
import proofs.«153673_j30485677867756_1_alg».proof.Proof.HostChain
import proofs.«153673_j30485677867756_1_alg».proof.Proof.RefSpec
import proofs.«153673_j30485677867756_1_alg».proof.Proof.LibRowVector

noncomputable section

open Idealize.ShloMosaic Idealize.ShloMosaic.TcCoe Idealize.SL.Sem

/-! ## The reference's stages over the kernel program's names for the shared host operations -/

namespace Cert.ReferenceIdeal.Stages

open Cert.ReferenceIdeal Cert.ReferenceIdeal.Gen Cert.ReferenceIdeal.ReadP Cert.Gcn
open Cert.KernelIdeal.Chain (srcFlat dstFlat agg128 agg40)

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 : (⟨S128x40, .f32⟩ : BufTy).Contents (Elt Ideal)) (x5 : (⟨S40, .f32⟩ : BufTy).Contents (Elt Ideal))

/-- The reference's first aggregation is the kernel program's, of the first dense stage. -/
theorem agg1 : val_main_v14 (F := Ideal) x0 x1 x2 = agg128 (F := Ideal) (srcFlat x1) (dstFlat x1) (val_main_v4 (F := Ideal) x0 x2) := rfl

/-- The reference's second aggregation is the kernel program's, of the second dense stage. -/
theorem agg2 : val_main_v29 (F := Ideal) x0 x1 x2 x3 x4 = agg40 (F := Ideal) (srcFlat x1) (dstFlat x1) (val_main_v19 (F := Ideal) x0 x1 x2 x3 x4) := rfl

/-- The first bias broadcast along a new leading axis is the bias recast as one row. -/
theorem bias1 : val_main_v15 (F := Ideal) x3 = shapeCast Cert.KernelIdeal.S1x128 x3 Cert.KernelIdeal.Facts₀.shapeCasts_S128_S1x128 :=
  (Cert.Lib.RowVector.shapeCast_row_eq_broadcastInDim x3 _ _).symm

/-- The second bias likewise. -/
theorem bias2 : val_main_v30 (F := Ideal) x5 = shapeCast Cert.KernelIdeal.S1x40 x5 Cert.KernelIdeal.Facts₀.shapeCasts_S40_S1x40 :=
  (Cert.Lib.RowVector.shapeCast_row_eq_broadcastInDim x5 _ _).symm

/-- The reference's result as the chain of index-by-index stages and aggregations. -/
theorem result : val_main_v33 (F := Ideal) x0 x1 x2 x3 x4 x5
    = (logSoftmaxRows (addRow
        (agg40 (F := Ideal) (srcFlat x1) (dstFlat x1)
          (dense (biasRelu (agg128 (F := Ideal) (srcFlat x1) (dstFlat x1) (dense (x0 : S50000x128.Idx → EReal) (x2 : S128x128.Idx → EReal)) : S50000x128.Idx → EReal)
            (shapeCast Cert.KernelIdeal.S1x128 x3 Cert.KernelIdeal.Facts₀.shapeCasts_S128_S1x128 : S1x128.Idx → EReal)) (x4 : S128x40.Idx → EReal)) : S50000x40.Idx → EReal)
        (shapeCast Cert.KernelIdeal.S1x40 x5 Cert.KernelIdeal.Facts₀.shapeCasts_S40_S1x40 : S1x40.Idx → EReal)) : S50000x40.Idx → EReal) := by
  rw [RefSpec.output, agg2, RefSpec.layer2, agg1, RefSpec.layer1, bias1, bias2]

end Cert.ReferenceIdeal.Stages

/-! ## The kernel program's result -/

namespace Cert.KernelIdeal.Result

open Cert.KernelIdeal Cert.KernelIdeal.Gen Cert.KernelIdeal.Chain Cert.Gcn

variable (m : (ℓ : Loc nD τ sig) → Buf (Elt Ideal) ℓ) (ρ : Dev nD → PrngReg)

/-- After the first region its output array is the product of the input with the first weights. -/
theorem layer1 (c : Dev nD) : (dat0 (F := Ideal) (V1 m ρ) c).arrAt 2 cfg0.N
    = (dense ((m ((c : Thread nD τ).loc main_arg0)) : S50000x128.Idx → EReal) ((m ((c : Thread nD τ).loc main_arg2)) : S128x128.Idx → EReal) : S50000x128.Idx → EReal) := by
  rw [Dense1.final (V1 m ρ) c, show V1 m ρ c main_arg0 = (m ((c : Thread nD τ).loc main_arg0)) from W1_arg0 m ρ c,
    show V1 m ρ c main_arg2 = (m ((c : Thread nD τ).loc main_arg2)) from W1_arg2 m ρ c]

/-- After the second region its output array is the product of max (first aggregation + first bias, 0) with the
    second weights. -/
theorem layer2 (c : Dev nD) : (dat1 (F := Ideal) (V3 m ρ) c).arrAt 3 cfg1.N
    = (dense (biasRelu (agg128 (F := Ideal) (srcFlat (m ((c : Thread nD τ).loc main_arg1))) (dstFlat (m ((c : Thread nD τ).loc main_arg1)))
          (dense ((m ((c : Thread nD τ).loc main_arg0)) : S50000x128.Idx → EReal) ((m ((c : Thread nD τ).loc main_arg2)) : S128x128.Idx → EReal)) : S50000x128.Idx → EReal)
        (shapeCast S1x128 (m ((c : Thread nD τ).loc main_arg3)) Facts₀.shapeCasts_S128_S1x128 : S1x128.Idx → EReal)) ((m ((c : Thread nD τ).loc main_arg4)) : S128x40.Idx → EReal) : S50000x40.Idx → EReal) := by
  rw [Dense2.final (V3 m ρ) c, show V3 m ρ c main_v14 = _ from W3_v14 m ρ c, show V3 m ρ c main_v15 = _ from W3_v15 m ρ c,
    show V3 m ρ c main_arg4 = _ from W3_arg4 m ρ c, layer1 m ρ c]

/-- After the third region the result array is the row-wise log-softmax of (second aggregation + second bias). -/
theorem output (c : Dev nD) : W6 m ρ c (Proc.devRef .tc main_v28)
    = Cert.ReferenceIdeal.ReadP.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [Cert.ReferenceIdeal.Stages.result, W6_v28 m ρ c, Softmax.final (V5 m ρ) c, show V5 m ρ c main_v26 = _ from W5_v26 m ρ c,
    show V5 m ρ c main_v27 = _ from W5_v27 m ρ c, layer2 m ρ c]

end Cert.KernelIdeal.Result

end
-- ==== Proof.RefValue.lean ====
/-
  The reference program's run, read back through its stages.

  The reference is a straight line of host operations: the first dense layer, the aggregation over the edges, the
  bias and the clamp at zero, the second dense layer, the second aggregation, the second bias, and the log-softmax
  of each row (the row's maximum from −∞, the shifted exponentials' sum, its logarithm). Every execution ends with
  each buffer at the fold of the operations over the launch memory; this file reads that fold at the result: up to
  the biased second aggregation it is that stage's term of the arguments, and the last fifteen operations apply the
  row-wise log-softmax `lsm` to it — which is the result's stage. The arguments' buffers are written by no operation.
-/
import proofs.«153673_j30485677867756_1_alg».proof.Proof.RefRead
import Idealize.ShloMosaic.Lib.StableHlo.Run
import Idealize.ShloMosaic.Lib.Pipeline.Frame

noncomputable section

namespace Cert.ReferenceIdeal.RefValue

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

-- a row reduction is determined by its operand and its initial value: that is all that is used of it below
attribute [local irreducible] Host.reduce Host.reduceAdd

/-- Each row's maximum (from −∞), laid out over the row. -/
def rowMaxB (z : (⟨S50000x40, .f32⟩ : BufTy).Contents (Elt F)) : (⟨S50000x40, .f32⟩ : BufTy).Contents (Elt F) :=
  broadcastInDim S50000x40 ![0, 1] bcast_S50000x1_S50000x40_0_1 (broadcastInDim S50000x1 ![0] bcast_S50000_S50000x1_0
    (maximumf (broadcastInDim S50000 ![] bcast_S_S50000 (constant S_ .f32 0xFF800000#32))
      (Host.reduce FloatOps.maximumf z (constant S_ .f32 0xFF800000#32) reducesTo_S50000x40_S50000_d1 h_S_)))

/-- The row-wise log-softmax as the reference computes it: (z − m) − log (sum over the row of exp (z − m)). -/
def lsm (z : (⟨S50000x40, .f32⟩ : BufTy).Contents (Elt F)) : (⟨S50000x40, .f32⟩ : BufTy).Contents (Elt F) :=
  subf (subf z (rowMaxB z))
    (broadcastInDim S50000x40 ![0, 1] bcast_S50000x1_S50000x40_0_1 (Host.log (broadcastInDim S50000x1 ![0] bcast_S50000_S50000x1_0
      (Host.reduceAdd (Host.exp (subf z (rowMaxB z))) (constant S_ .f32 0x00000000#32) reducesTo_S50000x40_S50000_d1 h_S_))))

/-- The log-softmax's fifteen operations, over the buffers themselves. -/
abbrev opsC : List (HloOp τ sig (Elt F)) :=
  [ nullary main_call1_cst (constant S_ .f32 0xFF800000#32),
    binary main_v32 main_call1_cst main_call1_v0 ((fun x v => Host.reduce FloatOps.maximumf x v reducesTo_S50000x40_S50000_d1 h_S_) : (⟨S50000x40, .f32⟩ : BufTy).Contents (Elt F) → (⟨S_, .f32⟩ : BufTy).Contents (Elt F) → (⟨S50000, .f32⟩ : BufTy).Contents (Elt F)),
    nullary main_call1_cst_0 (constant S_ .f32 0xFF800000#32),
    unary main_call1_cst_0 main_call1_v1 (broadcastInDim S50000 ![] bcast_S_S50000 : (⟨S_, .f32⟩ : BufTy).Contents (Elt F) → (⟨S50000, .f32⟩ : BufTy).Contents (Elt F)),
    binary main_call1_v1 main_call1_v0 main_call1_v2 (maximumf : (⟨S50000, .f32⟩ : BufTy).Contents (Elt F) → (⟨S50000, .f32⟩ : BufTy).Contents (Elt F) → (⟨S50000, .f32⟩ : BufTy).Contents (Elt F)),
    unary main_call1_v2 main_call1_v3 (broadcastInDim S50000x1 ![0] bcast_S50000_S50000x1_0 : (⟨S50000, .f32⟩ : BufTy).Contents (Elt F) → (⟨S50000x1, .f32⟩ : BufTy).Contents (Elt F)),
    unary main_call1_v3 main_call1_v4 (broadcastInDim S50000x40 ![0, 1] bcast_S50000x1_S50000x40_0_1 : (⟨S50000x1, .f32⟩ : BufTy).Contents (Elt F) → (⟨S50000x40, .f32⟩ : BufTy).Contents (Elt F)),
    binary main_v32 main_call1_v4 main_call1_v5 (subf : (⟨S50000x40, .f32⟩ : BufTy).Contents (Elt F) → (⟨S50000x40, .f32⟩ : BufTy).Contents (Elt F) → (⟨S50000x40, .f32⟩ : BufTy).Contents (Elt F)),
    unary main_call1_v5 main_call1_v6 (Host.exp : (⟨S50000x40, .f32⟩ : BufTy).Contents (Elt F) → (⟨S50000x40, .f32⟩ : BufTy).Contents (Elt F)),
    nullary main_call1_cst_1 (constant S_ .f32 0x00000000#32),
    binary main_call1_v6 main_call1_cst_1 main_call1_v7 ((fun x v => Host.reduceAdd x v reducesTo_S50000x40_S50000_d1 h_S_) : (⟨S50000x40, .f32⟩ : BufTy).Contents (Elt F) → (⟨S_, .f32⟩ : BufTy).Contents (Elt F) → (⟨S50000, .f32⟩ : BufTy).Contents (Elt F)),
    unary main_call1_v7 main_call1_v8 (broadcastInDim S50000x1 ![0] bcast_S50000_S50000x1_0 : (⟨S50000, .f32⟩ : BufTy).Contents (Elt F) → (⟨S50000x1, .f32⟩ : BufTy).Contents (Elt F)),
    unary main_call1_v8 main_call1_v9 (Host.log : (⟨S50000x1, .f32⟩ : BufTy).Contents (Elt F) → (⟨S50000x1, .f32⟩ : BufTy).Contents (Elt F)),
    unary main_call1_v9 main_call1_v10 (broadcastInDim S50000x40 ![0, 1] bcast_S50000x1_S50000x40_0_1 : (⟨S50000x1, .f32⟩ : BufTy).Contents (Elt F) → (⟨S50000x40, .f32⟩ : BufTy).Contents (Elt F)),
    binary main_call1_v5 main_call1_v10 main_v33 (subf : (⟨S50000x40, .f32⟩ : BufTy).Contents (Elt F) → (⟨S50000x40, .f32⟩ : BufTy).Contents (Elt F) → (⟨S50000x40, .f32⟩ : BufTy).Contents (Elt F)) ]

/-- They are the reference's last fifteen operations, one by one. -/
theorem drop_eq : (ops (F := F)).drop 41 = opsC := by
  conv_lhs => simp only [ops, List.drop_succ_cons, List.drop_zero]
  repeat (first | refine congrArg₂ List.cons ?_ ?_ | rfl)

/-- From any contents, the fifteen operations leave the log-softmax of the biased aggregation in the result. -/
theorem chunkC (W : Valuation τ sig (Elt F)) :
    after (opsC (F := F)) W (Proc.devRef .tc main_v33) = lsm (W (Proc.devRef .tc main_v32)) := by
  after_results
  rfl

set_option maxRecDepth 8192 in
set_option maxHeartbeats 2000000 in
/-- Up to the biased second aggregation, the fold is that stage's term of the arguments. -/
theorem read32 (m : (ℓ : Loc nD τ sig) → Buf (Elt F) ℓ) (c : Dev nD) :
    after ((ops (F := F)).take 41) (launchContents m c) (Proc.devRef .tc main_v32)
      = val_main_v32 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  simp only [ops, List.take_succ_cons, List.take_zero]
  after_results_simp
  simp only [TRef.ofBuf, TRef.toBuf, cast_eq]
  rfl

/-- The log-softmax of the biased second aggregation's stage is the result's stage. -/
theorem lsm_stage (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F))
    (x4 : (⟨S128x40, .f32⟩ : BufTy).Contents (Elt F)) (x5 : (⟨S40, .f32⟩ : BufTy).Contents (Elt F)) :
    lsm (val_main_v32 (F := F) x0 x1 x2 x3 x4 x5) = val_main_v33 (F := F) x0 x1 x2 x3 x4 x5 := rfl

/-- The whole fold at the result buffer is the result's stage of the arguments. -/
theorem read33 (m : (ℓ : Loc nD τ sig) → Buf (Elt F) ℓ) (c : Dev nD) :
    after (ops (F := F)) (launchContents m c) (Proc.devRef .tc main_v33)
      = val_main_v33 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have h := StableHlo.after_append ((ops (F := F)).take 41) ((ops (F := F)).drop 41) (launchContents m c)
  rw [List.take_append_drop] at h
  rw [h, drop_eq, chunkC, read32, lsm_stage]

set_option maxRecDepth 8192 in
set_option maxHeartbeats 2000000 in
/-- On every device, from any memory with zero counters: every weakly fair execution of the reference terminates with
    the result at its stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v33) = val_main_v33 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v33).trans (read33 m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RefValue

end
-- ==== Proof.lean ====
/-
  A two-layer graph convolution with a log-softmax head: the kernel program against its jnp reference, on the
  extended reals.

  The kernel program runs three dense regions — x · W1, then max (agg + b1, 0) · W2, then the row-wise log-softmax of
  agg + b2 — each in ten blocks of 5000 rows, with the aggregation over the graph's edges (a gather of rows at the
  edges' sources added into the rows at their destinations) done by host operations between them. The reference does
  the same chain on whole arrays. Every dense stage depends, at a row, only on that row of its array operand, so the
  blocks of rows assemble to the whole-array stage; the aggregations are the same host operations on equal arrays;
  the kernel's narrowing of the products' operands is the identity on the extended reals. Hence the two results are
  equal, entry by entry, with no use of the inputs' finiteness. The ideal pass rewrote nothing, so the kernel program's
  idealization is its own text.
-/
import proofs.«153673_j30485677867756_1_alg».proof.Defs
import proofs.«153673_j30485677867756_1_alg».proof.Proof.Gen.Kernel
import proofs.«153673_j30485677867756_1_alg».proof.Proof.Gen.Kernel.Skeleton
import proofs.«153673_j30485677867756_1_alg».proof.Proof.Gen.Kernel.Launch
import proofs.«153673_j30485677867756_1_alg».proof.Proof.Gen.Kernel.Points
import proofs.«153673_j30485677867756_1_alg».proof.Proof.Gen.Kernel.Frame
import proofs.«153673_j30485677867756_1_alg».proof.Proof.Gen.KernelIdeal
import proofs.«153673_j30485677867756_1_alg».proof.Proof.Gen.KernelIdeal.Skeleton
import proofs.«153673_j30485677867756_1_alg».proof.Proof.Gen.KernelIdeal.Launch
import proofs.«153673_j30485677867756_1_alg».proof.Proof.Gen.KernelIdeal.Points
import proofs.«153673_j30485677867756_1_alg».proof.Proof.Gen.KernelIdeal.Frame
import proofs.«153673_j30485677867756_1_alg».proof.Proof.Gen.ReferenceIdeal
import proofs.«153673_j30485677867756_1_alg».proof.Proof.Gen.Pre_finite_inputs
import proofs.«153673_j30485677867756_1_alg».proof.Proof.RunNamed
import proofs.«153673_j30485677867756_1_alg».proof.Proof.KernelValue
import proofs.«153673_j30485677867756_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- Both programs end with the reference's result stage of the (agreeing) arguments in their result buffers. -/
theorem algebraic : Cert.algebraic_KernelIdeal_ReferenceIdeal := by
  intro m ρ m' ρ' _ hagree
  refine ⟨fun c => Cert.KernelIdeal.Gen.W6 m ρ c (Proc.devRef .tc Cert.KernelIdeal.main_v28),
    Cert.KernelIdeal.Named.run_named (F := Ideal) m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2.1, (hagree c).2.2.2.2.1, (hagree c).2.2.2.2.2]
  exact (Cert.KernelIdeal.Result.output m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
